-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x64 : Shape := ⟨3, ![16, 128, 64]⟩
abbrev S16x128x128x3 : Shape := ⟨4, ![16, 128, 128, 3]⟩
abbrev S128x128 : Shape := ⟨2, ![128, 128]⟩
abbrev S128 : Shape := ⟨1, ![128]⟩
abbrev S_ : Shape := ⟨0, ![]⟩

class Facts : Prop where
  bcast_S_S16x128x64 : S_.BroadcastsInDim S16x128x64 (![] : Fin 0 → Fin S16x128x64.rank)
  reducesTo_S16x128x64_S_d0_1_2 : S16x128x64.ReducesTo [0, 1, 2] S_
  h_S_ : 0 < S_.numel
  bcast_S_S16x128x128x3 : S_.BroadcastsInDim S16x128x128x3 (![] : Fin 0 → Fin S16x128x128x3.rank)
  reducesTo_S16x128x128x3_S_d0_1_2_3 : S16x128x128x3.ReducesTo [0, 1, 2, 3] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16x128x64 .f32) (main_arg1 : FVec F S16x128x128x3 .f32) (main_arg2 : FVec F S128x128 .f32) (main_arg3 : FVec F S128 .f32) : IVec S_ 1 :=
  let main_v0 : FVec F S16x128x64 .f32 := Host.absf main_arg0
  let main_cst : FVec F S_ .f32 := constant S_ .f32 0x7F800000#32
  let main_v1 : FVec F S16x128x64 .f32 := broadcastInDim S16x128x64 ![] bcast_S_S16x128x64 main_cst
  let main_v2 : IVec S16x128x64 1 := cmpf .olt main_v0 main_v1
  let main_c : IVec S_ 1 := constantI S_ 1 1#1
  let main_v3 : IVec S_ 1 := (fun x v => Host.reduce IntOp.andi x v reducesTo_S16x128x64_S_d0_1_2 h_S_) main_v2 main_c
  let main_v4 : FVec F S16x128x128x3 .f32 := Host.absf main_arg1
  let main_cst_0 : FVec F S_ .f32 := constant S_ .f32 0x7F800000#32
  let main_v5 : FVec F S16x128x128x3 .f32 := broadcastInDim S16x128x128x3 ![] bcast_S_S16x128x128x3 main_cst_0
  let main_v6 : IVec S16x128x128x3 1 := cmpf .olt main_v4 main_v5
  let main_c_1 : IVec S_ 1 := constantI S_ 1 1#1
  let main_v7 : IVec S_ 1 := (fun x v => Host.reduce IntOp.andi x v reducesTo_S16x128x128x3_S_d0_1_2_3 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16x128x64 : Shape := ⟨3, ![16, 128, 64]⟩
abbrev S16x128x128x3 : Shape := ⟨4, ![16, 128, 128, 3]⟩
abbrev S128x128 : Shape := ⟨2, ![128, 128]⟩
abbrev S128 : Shape := ⟨1, ![128]⟩
abbrev S1x128 : Shape := ⟨2, ![1, 128]⟩
abbrev S16x128x128x3x128 : Shape := ⟨5, ![16, 128, 128, 3, 128]⟩
abbrev S1x128x64 : Shape := ⟨3, ![1, 128, 64]⟩
abbrev S1x32x64 : Shape := ⟨3, ![1, 32, 64]⟩
abbrev S1x128x32x3 : Shape := ⟨4, ![1, 128, 32, 3]⟩
abbrev S1x128x32x3x128 : Shape := ⟨5, ![1, 128, 32, 3, 128]⟩
abbrev S128x64 : Shape := ⟨2, ![128, 64]⟩
abbrev S32x64 : Shape := ⟨2, ![32, 64]⟩
abbrev S64x128 : Shape := ⟨2, ![64, 128]⟩
abbrev S32x128 : Shape := ⟨2, ![32, 128]⟩
abbrev S128x1x128 : Shape := ⟨3, ![128, 1, 128]⟩
abbrev S1x32x128 : Shape := ⟨3, ![1, 32, 128]⟩
abbrev S128x32x128 : Shape := ⟨3, ![128, 32, 128]⟩
abbrev S1x1x128 : Shape := ⟨3, ![1, 1, 128]⟩
abbrev S128x32x3 : Shape := ⟨3, ![128, 32, 3]⟩
abbrev S128x32x1x128 : Shape := ⟨4, ![128, 32, 1, 128]⟩
abbrev S128x32x3x1 : Shape := ⟨4, ![128, 32, 3, 1]⟩
abbrev S128x32x3x128 : Shape := ⟨4, ![128, 32, 3, 128]⟩

abbrev nBuf : Space → Nat
  | .hbm => 6
  | .vmem => 10
  | .smem => 0
  | _ => 0

abbrev bufTy : (tb : Table) → Fin (tcTables nBuf tb) → BufTy
  | .hbm, ⟨0, _⟩ => ⟨S16x128x64, .f32⟩
  | .hbm, ⟨1, _⟩ => ⟨S16x128x128x3, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S16x128x128x3x128, .f32⟩
  | .local _ .vmem, ⟨0, _⟩ => ⟨S1x128x64, .f32⟩
  | .local _ .vmem, ⟨1, _⟩ => ⟨S1x128x64, .f32⟩
  | .local _ .vmem, ⟨2, _⟩ => ⟨S1x32x64, .f32⟩
  | .local _ .vmem, ⟨3, _⟩ => ⟨S1x32x64, .f32⟩
  | .local _ .vmem, ⟨4, _⟩ => ⟨S1x128x32x3, .f32⟩
  | .local _ .vmem, ⟨5, _⟩ => ⟨S1x128x32x3, .f32⟩
  | .local _ .vmem, ⟨6, _⟩ => ⟨S128x128, .f32⟩
  | .local _ .vmem, ⟨7, _⟩ => ⟨S1x128, .f32⟩
  | .local _ .vmem, ⟨8, _⟩ => ⟨S1x128x32x3x128, .f32⟩
  | .local _ .vmem, ⟨9, _⟩ => ⟨S1x128x32x3x128, .f32⟩
  | _, _ => ⟨S16x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x32x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x32x3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S128_S1x128 : S128.ShapeCasts S1x128
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  bitsLt_bf16_f32 : FTy.bits .bf16 < FTy.bits .f32
  inb_S1x32x64_S1x32x64_0_0_0 : ∀ a, (![0, 0, 0] : Fin 3 → Nat) a + S1x32x64.size a ≤ S1x32x64.size a
  h_S1x32x64 : 0 < S1x32x64.numel
  shapeCasts_S1x32x64_S32x64 : S1x32x64.ShapeCasts S32x64
  inb_S128x128_S128x128_0_0 : ∀ a, (![0, 0] : Fin 2 → Nat) a + S128x128.size a ≤ S128x128.size a
  h_S128x128 : 0 < S128x128.numel
  slices_S128x128_o0_0_S64x128 : S128x128.Slices ![0, 0] S64x128
  slices_S128x128_o64_0_S64x128 : S128x128.Slices ![64, 0] S64x128
  inb_S1x128_S1x128_0_0 : ∀ a, (![0, 0] : Fin 2 → Nat) a + S1x128.size a ≤ S1x128.size a
  h_S1x128 : 0 < S1x128.numel
  shapeCasts_S1x128_S128 : S1x128.ShapeCasts S128
  shapeCasts_S128x128_S128x1x128 : S128x128.ShapeCasts S128x1x128
  shapeCasts_S32x128_S1x32x128 : S32x128.ShapeCasts S1x32x128
  broadcasts_S128x1x128_S128x32x128 : S128x1x128.Broadcasts S128x32x128
  broadcasts_S1x32x128_S128x32x128 : S1x32x128.Broadcasts S128x32x128
  shapeCasts_S128_S1x1x128 : S128.ShapeCasts S1x1x128
  broadcasts_S1x1x128_S128x32x128 : S1x1x128.Broadcasts S128x32x128
  inb_S1x128x32x3_S1x128x32x3_0_0_0_0 : ∀ a, (![0, 0, 0, 0] : Fin 4 → Nat) a + S1x128x32x3.size a ≤ S1x128x32x3.size a
  h_S1x128x32x3 : 0 < S1x128x32x3.numel
  shapeCasts_S1x128x32x3_S128x32x3 : S1x128x32x3.ShapeCasts S128x32x3
  shapeCasts_S128x32x128_S128x32x1x128 : S128x32x128.ShapeCasts S128x32x1x128
  shapeCasts_S128x32x3_S128x32x3x1 : S128x32x3.ShapeCasts S128x32x3x1
  broadcasts_S128x32x1x128_S128x32x3x128 : S128x32x1x128.Broadcasts S128x32x3x128
  broadcasts_S128x32x3x1_S128x32x3x128 : S128x32x3x1.Broadcasts S128x32x3x128
  inb_S1x128x32x3x128_S1x128x32x3x128_0_0_0_0_0 : ∀ a, (![0, 0, 0, 0, 0] : Fin 5 → Nat) a + S1x128x32x3x128.size a ≤ S1x128x32x3x128.size a
  h_S1x128x32x3x128 : 0 < S1x128x32x3x128.numel
  shapeCasts_S1x128x32x3x128_S128x32x3x128 : S1x128x32x3x128.ShapeCasts S128x32x3x128
  shapeCasts_S128x32x3x128_S1x128x32x3x128 : S128x32x3x128.ShapeCasts S1x128x32x3x128
  dot_S128x64_S64x128_S128x128_1_0_0_1_n_n_wf : DotDims.WF S128x64 S64x128 S128x128 [1] [0] [0] [1] [] []
  dot_S32x64_S64x128_S32x128_1_0_0_1_n_n_wf : DotDims.WF S32x64 S64x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64.size a ≤ S16x128x64.size a
  hwx0_0 : ∀ i : grid0.Coords, EltTy.bits .f32 = 32 ∨ (Rect.block (s := S16x128x64) S1x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x64.size a ≤ S16x128x64.size a
  hwx0_1 : ∀ i : grid0.Coords, EltTy.bits .f32 = 32 ∨ (Rect.block (s := S16x128x64) S1x32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x32x3.size a ≤ S16x128x128x3.size a
  hwx0_2 : ∀ i : grid0.Coords, EltTy.bits .f32 = 32 ∨ (Rect.block (s := S16x128x128x3) S1x128x32x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x32x3x128.size a ≤ S16x128x128x3x128.size a
  hwx0_5 : ∀ i : grid0.Coords, EltTy.bits .f32 = 32 ∨ (Rect.block (s := S16x128x128x3x128) S1x128x32x3x128.size (cc0_transform_5 i) (hinb0_5 i)).WholeWords (EltTy.packing .f32)

variable [Facts₀]

def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def dot_S32x64_S64x128_S32x128_1_0_0_1_n_n : DotDims S32x64 S64x128 S32x128 where
  lhsContracting := [1]
  rhsContracting := [0]
  lhsNonContracting := [0]
  rhsNonContracting := [1]
  lhsBatch := []
  rhsBatch := []
  wf := dot_S32x64_S64x128_S32x128_1_0_0_1_n_n_wf

abbrev win0_0 : Pipeline.Window sig grid0 :=
  Pipeline.Window.ofSpec (Memref.whole main_arg0) S1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x128x32x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128x32x3x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x128x64 : Shape := ⟨3, ![16, 128, 64]⟩
abbrev S16x128x128x3 : Shape := ⟨4, ![16, 128, 128, 3]⟩
abbrev S128x128 : Shape := ⟨2, ![128, 128]⟩
abbrev S128 : Shape := ⟨1, ![128]⟩
abbrev S64x128 : Shape := ⟨2, ![64, 128]⟩
abbrev S16x128x128 : Shape := ⟨3, ![16, 128, 128]⟩
abbrev S16x128x1x128 : Shape := ⟨4, ![16, 128, 1, 128]⟩
abbrev S16x1x128x128 : Shape := ⟨4, ![16, 1, 128, 128]⟩
abbrev S16x128x128x128 : Shape := ⟨4, ![16, 128, 128, 128]⟩
abbrev S1x1x1x128 : Shape := ⟨4, ![1, 1, 1, 128]⟩
abbrev S16x128x128x1x128 : Shape := ⟨5, ![16, 128, 128, 1, 128]⟩
abbrev S16x128x128x3x1 : Shape := ⟨5, ![16, 128, 128, 3, 1]⟩
abbrev S16x128x128x3x128 : Shape := ⟨5, ![16, 128, 128, 3, 128]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S16x128x64, .f32⟩
  | .hbm, ⟨1, _⟩ => ⟨S16x128x128x3, .f32⟩
  | .hbm, ⟨2, _⟩ => ⟨S128x128, .f32⟩
  | .hbm, ⟨3, _⟩ => ⟨S128, .f32⟩
  | .hbm, ⟨4, _⟩ => ⟨S64x128, .f32⟩
  | .hbm, ⟨5, _⟩ => ⟨S16x128x128, .f32⟩
  | .hbm, ⟨6, _⟩ => ⟨S64x128, .f32⟩
  | .hbm, ⟨7, _⟩ => ⟨S16x128x128, .f32⟩
  | .hbm, ⟨8, _⟩ => ⟨S16x128x1x128, .f32⟩
  | .hbm, ⟨9, _⟩ => ⟨S16x1x128x128, .f32⟩
  | .hbm, ⟨10, _⟩ => ⟨S16x128x128x128, .f32⟩
  | .hbm, ⟨11, _⟩ => ⟨S16x128x128x128, .f32⟩
  | .hbm, ⟨12, _⟩ => ⟨S16x128x128x128, .f32⟩
  | .hbm, ⟨13, _⟩ => ⟨S1x1x1x128, .f32⟩
  | .hbm, ⟨14, _⟩ => ⟨S16x128x128x128, .f32⟩
  | .hbm, ⟨15, _⟩ => ⟨S16x128x128x128, .f32⟩
  | .hbm, ⟨16, _⟩ => ⟨S16x128x128x1x128, .f32⟩
  | .hbm, ⟨17, _⟩ => ⟨S16x128x128x3x1, .f32⟩
  | .hbm, ⟨18, _⟩ => ⟨S16x128x128x3x128, .f32⟩
  | .hbm, ⟨19, _⟩ => ⟨S16x128x128x3x128, .f32⟩
  | .hbm, ⟨20, _⟩ => ⟨S16x128x128x3x128, .f32⟩
  | .hbm, ⟨21, _⟩ => ⟨S_, .f32⟩
  | .hbm, ⟨22, _⟩ => ⟨S16x128x128x3x128, .f32⟩
  | .hbm, ⟨23, _⟩ => ⟨S16x128x128x3x128, .f32⟩
  | _, _ => ⟨S16x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_cst : Ref sig .tc := ⟨.hbm, 21, rfl⟩
abbrev main_call0_v0 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  slices_S128x128_S64x128_0_0 : S128x128.Slices ![0, 0] S64x128
  slices_S128x128_S64x128_64_0 : S128x128.Slices ![64, 0] S64x128
  bcast_S16x128x128_S16x128x1x128_0_1_3 : S16x128x128.BroadcastsInDim S16x128x1x128 (![0, 1, 3] : Fin 3 → Fin S16x128x1x128.rank)
  bcast_S16x128x128_S16x1x128x128_0_2_3 : S16x128x128.BroadcastsInDim S16x1x128x128 (![0, 2, 3] : Fin 3 → Fin S16x1x128x128.rank)
  bcast_S16x128x1x128_S16x128x128x128_0_1_2_3 : S16x128x1x128.BroadcastsInDim S16x128x128x128 (![0, 1, 2, 3] : Fin 4 → Fin S16x128x128x128.rank)
  bcast_S16x1x128x128_S16x128x128x128_0_1_2_3 : S16x1x128x128.BroadcastsInDim S16x128x128x128 (![0, 1, 2, 3] : Fin 4 → Fin S16x128x128x128.rank)
  bcast_S128_S1x1x1x128_3 : S128.BroadcastsInDim S1x1x1x128 (![3] : Fin 1 → Fin S1x1x1x128.rank)
  bcast_S1x1x1x128_S16x128x128x128_0_1_2_3 : S1x1x1x128.BroadcastsInDim S16x128x128x128 (![0, 1, 2, 3] : Fin 4 → Fin S16x128x128x128.rank)
  bcast_S16x128x128x128_S16x128x128x1x128_0_1_2_4 : S16x128x128x128.BroadcastsInDim S16x128x128x1x128 (![0, 1, 2, 4] : Fin 4 → Fin S16x128x128x1x128.rank)
  bcast_S16x128x128x3_S16x128x128x3x1_0_1_2_3 : S16x128x128x3.BroadcastsInDim S16x128x128x3x1 (![0, 1, 2, 3] : Fin 4 → Fin S16x128x128x3x1.rank)
  bcast_S16x128x128x1x128_S16x128x128x3x128_0_1_2_3_4 : S16x128x128x1x128.BroadcastsInDim S16x128x128x3x128 (![0, 1, 2, 3, 4] : Fin 5 → Fin S16x128x128x3x128.rank)
  bcast_S16x128x128x3x1_S16x128x128x3x128_0_1_2_3_4 : S16x128x128x3x1.BroadcastsInDim S16x128x128x3x128 (![0, 1, 2, 3, 4] : Fin 5 → Fin S16x128x128x3x128.rank)
  bcast_S_S16x128x128x3x128 : S_.BroadcastsInDim S16x128x128x3x128 (![] : Fin 0 → Fin S16x128x128x3x128.rank)
  dot_S16x128x64_S64x128_S16x128x128_2_0_01_1_n_n_wf : DotDims.WF S16x128x64 S64x128 S16x128x128 [2] [0] [0, 1] [1] [] []

variable [Facts₀]

def dot_S16x128x64_S64x128_S16x128x128_2_0_01_1_n_n : DotDims S16x128x64 S64x128 S16x128x128 where
  lhsContracting := [2]
  rhsContracting := [0]
  lhsNonContracting := [0, 1]
  rhsNonContracting := [1]
  lhsBatch := []
  rhsBatch := []
  wf := dot_S16x128x64_S64x128_S16x128x128_2_0_01_1_n_n_wf

class Facts : Prop extends Facts₀ where

variable [Facts]
-- ==== Proof.LibSharedFrame.lean ====
/-
  The frame run of a one-region pipeline kernel whose INPUT windows may share an array.

  A kernel handed one array through two input windows (the same features read as a whole-row block and as a
  column tile, say) holds that array's buffer once, so the windows on it cannot each hold it at the full share.
  The pipeline's proof data name a share per window (`Dat.q`); the certificate says how the distinct buffers
  behind the arrays, each whole at the full share, are dealt among the windows (`hsplit`).  Everything else is
  as for a kernel with distinct arrays: a body that uses no semaphore of its own, keeps nothing between grid
  points outside its staging buffers, and leaves the scoped buffers the pipeline does not stage untouched
  (the invariant is `scopedRest`, constant in the point); every unscoped buffer that is no window's array
  bypasses the region and is read back unchanged.  The conclusion is the library's `FramePost`.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

include hinj hw in
/-- THE FRAME RUN for windows that may share arrays: from any memory with zero counters every weakly fair execution
    of @main terminates; every array of the pipeline ends at what the library computes from the proof data
    (`Dat.arrAt … N`) and every other unscoped buffer at what it held when the region was entered (`V`). -/
theorem θ_run_frame_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = scopedRest (Ix := Unit) (Name := ℕ) (U := UR sig nD τ) (Lvl := ℕ) (cfg).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr; · iempintro
      iexact HU)
    (hin := fun c => by
      rw [hΦ]
      iintro ⟨-, HR⟩
      iexact HR)
    (hout := fun c => by
      rw [hΦ]
      iintro HR
      isplitr; · iempintro
      iexact HR)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Pipeline

end Idealize.ShloMosaic

end
-- ==== Proof.SvFrameK.lean ====
/-
  The frame of the program's one pallas_call, and what its output array holds afterwards.

  The call hands the features array to the kernel TWICE: window 0 reads batch `b`'s whole `128 × 64` slab (the row
  atoms), window 1 the `32 × 64` tile of the same slab that the column tile `j` selects.  Both are inputs, so the
  array's buffer is dealt between them by halves of the full share; windows 2, 3, 4 (the distances' tile, the
  weights, the bias row) and the output window 5 each hold an array of their own at the full share.  The grid has
  `16 × 4 = 64` points; at each the body loads its five input blocks whole, computes one value, and stores it over
  the whole output block, so after the body the output's staging buffer is that value of the five blocks and each
  input's is its block, as found.  Nothing is kept between points outside the staging buffers.

  From these proof data the launch theorem for shared input arrays gives the run: @main terminates, the output
  array ends at the write-backs of the body's values over its entry contents, every argument array as launched.
-/
import proofs.«167638_j9388798509584_1_alg».proof.Proof.Gen.Kernel.Launch
import proofs.«167638_j9388798509584_1_alg».proof.Proof.Gen.Kernel.Skeleton
import proofs.«167638_j9388798509584_1_alg».proof.Proof.Gen.Kernel.Points
import proofs.«167638_j9388798509584_1_alg».proof.Proof.LibSharedFrame
import Idealize.ShloMosaic.Lib.Pipeline.FrameBody
import Idealize.ShloMosaic.Lib.Tactic

set_option maxRecDepth 16384

noncomputable section

namespace Cert.Kernel.SvFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the one host operation, the bias reshaped to a row. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; rfl

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the four argument arrays: the region finds each as launched. -/
theorem V_arg (b : Ref sig .tc) (hb : b ≠ main_v0) (c : Dev nD) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: when the
    pipeline does not fetch, the block index has not moved and the body left the block in place. One statement per
    input window (each uncut and never idle), for any proof data whose array is `V`'s and whose body leaves the
    block as found. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take their buffer whole -/

abbrev rRow : Rect S1x128x64 := Rect.unit (s := S1x128x64) ![0, 0, 0] S1x128x64.size inb_S1x128x64_S1x128x64_0_0_0
abbrev rCol : Rect S1x32x64 := Rect.unit (s := S1x32x64) ![0, 0, 0] S1x32x64.size inb_S1x32x64_S1x32x64_0_0_0
abbrev rDist : Rect S1x128x32x3 := Rect.unit (s := S1x128x32x3) ![0, 0, 0, 0] S1x128x32x3.size inb_S1x128x32x3_S1x128x32x3_0_0_0_0
abbrev rW : Rect S128x128 := Rect.unit (s := S128x128) ![0, 0] S128x128.size inb_S128x128_S128x128_0_0
abbrev rBias : Rect S1x128 := Rect.unit (s := S1x128) ![0, 0] S1x128.size inb_S1x128_S1x128_0_0
abbrev rOut : Rect S1x128x32x3x128 := Rect.unit (s := S1x128x32x3x128) ![0, 0, 0, 0, 0] S1x128x32x3x128.size inb_S1x128x32x3x128_S1x128x32x3x128_0_0_0_0_0

/-- The output window's staging buffer after the body, from the five input blocks: its one store, of the body's
    value (the skeleton's payload) of the loaded blocks. -/
def outBlk (xRow : Vec F S1x128x64 .f32) (xCol : Vec F S1x32x64 .f32) (xDist : Vec F S1x128x32x3 .f32)
    (xW : Vec F S128x128 .f32) (xBias : Vec F S1x128 .f32) : Vec F S1x128x32x3x128 .f32 :=
  View.canon [⟨rOut, k0_pay1 (View.ld xRow rRow) (View.ld xCol rCol) (View.ld xW rW) (View.ld xBias rBias) (View.ld xDist rDist)⟩]

/-- The store covers the buffer. -/
theorem outCover (p0 : Vec F S1x128x32x3x128 .f32) (y : S1x128x32x3x128.Idx) :
    ∃ pc ∈ ([⟨rOut, p0⟩] : List (View.Piece (Elt F) S1x128x32x3x128 .f32)), y ∈ pc.1.set :=
  View.cover_of_tiled [⟨rOut, p0⟩] S1x128x32x3x128.size (by rfl) y

/-! ## The body's triple -/

set_option maxHeartbeats 1000000 in
/-- The kernel body on whole staging memrefs, the inputs' at read contents and the output's at anything, runs to the
    continuation holding the inputs' as they were and the output's at `outBlk` of them. -/
theorem sound_kernel (c : Dev nD) (E : Set ℕ) (i : grid0.Coords)
    (a0 : Memref sig .tc .vmem S1x128x64 .f32) (h0 : a0.IsWhole) (a1 : Memref sig .tc .vmem S1x32x64 .f32) (h1 : a1.IsWhole)
    (a2 : Memref sig .tc .vmem S1x128x32x3 .f32) (h2 : a2.IsWhole) (a3 : Memref sig .tc .vmem S128x128 .f32) (h3 : a3.IsWhole)
    (a4 : Memref sig .tc .vmem S1x128 .f32) (h4 : a4.IsWhole) (a5 : Memref sig .tc .vmem S1x128x32x3x128 .f32) (h5 : a5.IsWhole)
    (x0 : Vec F S1x128x64 .f32) (x1 : Vec F S1x32x64 .f32) (x2 : Vec F S1x128x32x3 .f32) (x3 : Vec F S128x128 .f32) (x4 : Vec F S1x128 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (outBlk x0 x1 x2 x3 x4)) -∗ K ⟨⟩))
      ⊢ wp frame (wpE (defs₀ (F := F)) Variants.none c none) E (cc0__sv_kernel i a0 h0 a1 h1 a2 h2 a3 h3 a4 h4 a5 h5) K := by
  simp only [cc0__sv_kernel_eq_skeleton]; unfold cc0__sv_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The pipeline's proof data -/

/-- The proof data on core `c`: the arrays as the region finds them; after the body at point `t` each input's buffer at
    its block and the output's at `outBlk` of the five blocks; the invariant the scoped buffers the pipeline does not
    stage (none here), constant in the point; nothing owed. The features array is read through windows 0 and 1:
    each holds one half of its full share; every other input holds its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.scopedRest (Ix := Unit) (Name := ℕ) (U := UR sig nD τ) (Lvl := ℕ) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlk (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## Dealing the arrays' buffers among the windows -/

/-- The buffers behind the windows' arrays, one by one: the features, the distances, the weights, the bias row and
    the result. -/
theorem bigSep_arrs {M : Type} [URA M] (Φ : Ref sig .tc → sProp M) :
    bigSep (Finset.univ.image (Pipeline.arrRef spec0)) Φ
      = iprop(Φ main_arg0 ∗ Φ main_arg1 ∗ Φ main_arg2 ∗ Φ main_v0 ∗ Φ main_v1) :=
  bigSep_eq_bigSepL_of_eq [main_arg0, main_arg1, main_arg2, main_v0, main_v1] (by decide) (by decide) Φ

/-- The five distinct buffers behind the six windows' arrays, each whole at the full share, give every window its
    array at its share: the features' buffer splits into its two halves, one for each of the windows on it. -/
theorem arrays_dealt (c : Dev nD) :
    (Pipeline.arrBufs spec0 c (V m c) : sProp 𝕄) ⊢ (dats m 0 c).arrays ((dats m 0 c).arrAt · 0) := by
  unfold Pipeline.arrBufs Pipeline.Dat.arrays
  rw [bigSep_W0, bigSep_arrs]
  simp only [View.set_whole]
  iintro ⟨HX, HD, HW, HB, HO⟩
  ihave HX' := (pointsTo_share (PosShare.mem_left_op_right fullShare)).1 $$ HX
  icases HX' with ⟨HXl, HXr⟩
  isplitl [HXl]; · iexact HXl
  isplitl [HXr]; · iexact HXr
  isplitl [HD]; · iexact HD
  isplitl [HW]; · iexact HW
  isplitl [HB]; · iexact HB
  iexact HO

/-! ## The run and the frame -/

set_option backward.isDefEq.respectTransparency.types false in
/-- From any memory with zero counters every weakly fair execution of @main terminates; the six windows' arrays end at
    what the library computes from the proof data and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := arrays_dealt m) (hΦ := fun _ _ => rfl)

/-- THE FRAME: @main terminates without a fault and the four argument arrays end as launched — the features, the
    distances and the weights are input windows' arrays, which the pipeline only reads; the bias is no window's array
    (the kernel reads its reshaped copy) and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_arg m main_arg0 (by decide) c))),
     ((h c).1 2).trans (((dats m 0 c).arrAt_in 2 rfl _).trans ((A_eq m c 2).trans (V_arg m main_arg1 (by decide) c))),
     ((h c).1 3).trans (((dats m 0 c).arrAt_in 3 rfl _).trans ((A_eq m c 3).trans (V_arg m main_arg2 (by decide) c))),
     ((h c).2 main_arg3 (Pipeline.mem_restRefs_of main_arg3 (by decide) (by decide))).trans (V_arg m main_arg3 (by decide) c)⟩)
    (run_main m ρ)

end Cert.Kernel.SvFrame

end
-- ==== Proof.SvFrameI.lean ====
/-
  The frame of the program's one pallas_call, and what its output array holds afterwards.

  The call hands the features array to the kernel TWICE: window 0 reads batch `b`'s whole `128 × 64` slab (the row
  atoms), window 1 the `32 × 64` tile of the same slab that the column tile `j` selects.  Both are inputs, so the
  array's buffer is dealt between them by halves of the full share; windows 2, 3, 4 (the distances' tile, the
  weights, the bias row) and the output window 5 each hold an array of their own at the full share.  The grid has
  `16 × 4 = 64` points; at each the body loads its five input blocks whole, computes one value, and stores it over
  the whole output block, so after the body the output's staging buffer is that value of the five blocks and each
  input's is its block, as found.  Nothing is kept between points outside the staging buffers.

  From these proof data the launch theorem for shared input arrays gives the run: @main terminates, the output
  array ends at the write-backs of the body's values over its entry contents, every argument array as launched.
-/
import proofs.«167638_j9388798509584_1_alg».proof.Proof.Gen.KernelIdeal.Launch
import proofs.«167638_j9388798509584_1_alg».proof.Proof.Gen.KernelIdeal.Skeleton
import proofs.«167638_j9388798509584_1_alg».proof.Proof.Gen.KernelIdeal.Points
import proofs.«167638_j9388798509584_1_alg».proof.Proof.LibSharedFrame
import Idealize.ShloMosaic.Lib.Pipeline.FrameBody
import Idealize.ShloMosaic.Lib.Tactic

set_option maxRecDepth 16384

noncomputable section

namespace Cert.KernelIdeal.SvFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the one host operation, the bias reshaped to a row. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; rfl

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the four argument arrays: the region finds each as launched. -/
theorem V_arg (b : Ref sig .tc) (hb : b ≠ main_v0) (c : Dev nD) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: when the
    pipeline does not fetch, the block index has not moved and the body left the block in place. One statement per
    input window (each uncut and never idle), for any proof data whose array is `V`'s and whose body leaves the
    block as found. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and the one store take their buffer whole -/

abbrev rRow : Rect S1x128x64 := Rect.unit (s := S1x128x64) ![0, 0, 0] S1x128x64.size inb_S1x128x64_S1x128x64_0_0_0
abbrev rCol : Rect S1x32x64 := Rect.unit (s := S1x32x64) ![0, 0, 0] S1x32x64.size inb_S1x32x64_S1x32x64_0_0_0
abbrev rDist : Rect S1x128x32x3 := Rect.unit (s := S1x128x32x3) ![0, 0, 0, 0] S1x128x32x3.size inb_S1x128x32x3_S1x128x32x3_0_0_0_0
abbrev rW : Rect S128x128 := Rect.unit (s := S128x128) ![0, 0] S128x128.size inb_S128x128_S128x128_0_0
abbrev rBias : Rect S1x128 := Rect.unit (s := S1x128) ![0, 0] S1x128.size inb_S1x128_S1x128_0_0
abbrev rOut : Rect S1x128x32x3x128 := Rect.unit (s := S1x128x32x3x128) ![0, 0, 0, 0, 0] S1x128x32x3x128.size inb_S1x128x32x3x128_S1x128x32x3x128_0_0_0_0_0

/-- The output window's staging buffer after the body, from the five input blocks: its one store, of the body's
    value (the skeleton's payload) of the loaded blocks. -/
def outBlk (xRow : Vec F S1x128x64 .f32) (xCol : Vec F S1x32x64 .f32) (xDist : Vec F S1x128x32x3 .f32)
    (xW : Vec F S128x128 .f32) (xBias : Vec F S1x128 .f32) : Vec F S1x128x32x3x128 .f32 :=
  View.canon [⟨rOut, k0_pay1 (View.ld xRow rRow) (View.ld xCol rCol) (View.ld xW rW) (View.ld xBias rBias) (View.ld xDist rDist)⟩]

/-- The store covers the buffer. -/
theorem outCover (p0 : Vec F S1x128x32x3x128 .f32) (y : S1x128x32x3x128.Idx) :
    ∃ pc ∈ ([⟨rOut, p0⟩] : List (View.Piece (Elt F) S1x128x32x3x128 .f32)), y ∈ pc.1.set :=
  View.cover_of_tiled [⟨rOut, p0⟩] S1x128x32x3x128.size (by rfl) y

/-! ## The body's triple -/

set_option maxHeartbeats 1000000 in
/-- The kernel body on whole staging memrefs, the inputs' at read contents and the output's at anything, runs to the
    continuation holding the inputs' as they were and the output's at `outBlk` of them. -/
theorem sound_kernel (c : Dev nD) (E : Set ℕ) (i : grid0.Coords)
    (a0 : Memref sig .tc .vmem S1x128x64 .f32) (h0 : a0.IsWhole) (a1 : Memref sig .tc .vmem S1x32x64 .f32) (h1 : a1.IsWhole)
    (a2 : Memref sig .tc .vmem S1x128x32x3 .f32) (h2 : a2.IsWhole) (a3 : Memref sig .tc .vmem S128x128 .f32) (h3 : a3.IsWhole)
    (a4 : Memref sig .tc .vmem S1x128 .f32) (h4 : a4.IsWhole) (a5 : Memref sig .tc .vmem S1x128x32x3x128 .f32) (h5 : a5.IsWhole)
    (x0 : Vec F S1x128x64 .f32) (x1 : Vec F S1x32x64 .f32) (x2 : Vec F S1x128x32x3 .f32) (x3 : Vec F S128x128 .f32) (x4 : Vec F S1x128 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (outBlk x0 x1 x2 x3 x4)) -∗ K ⟨⟩))
      ⊢ wp frame (wpE (defs₀ (F := F)) Variants.none c none) E (cc0__sv_kernel i a0 h0 a1 h1 a2 h2 a3 h3 a4 h4 a5 h5) K := by
  simp only [cc0__sv_kernel_eq_skeleton]; unfold cc0__sv_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The pipeline's proof data -/

/-- The proof data on core `c`: the arrays as the region finds them; after the body at point `t` each input's buffer at
    its block and the output's at `outBlk` of the five blocks; the invariant the scoped buffers the pipeline does not
    stage (none here), constant in the point; nothing owed. The features array is read through windows 0 and 1:
    each holds one half of its full share; every other input holds its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.scopedRest (Ix := Unit) (Name := ℕ) (U := UR sig nD τ) (Lvl := ℕ) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlk (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## Dealing the arrays' buffers among the windows -/

/-- The buffers behind the windows' arrays, one by one: the features, the distances, the weights, the bias row and
    the result. -/
theorem bigSep_arrs {M : Type} [URA M] (Φ : Ref sig .tc → sProp M) :
    bigSep (Finset.univ.image (Pipeline.arrRef spec0)) Φ
      = iprop(Φ main_arg0 ∗ Φ main_arg1 ∗ Φ main_arg2 ∗ Φ main_v0 ∗ Φ main_v1) :=
  bigSep_eq_bigSepL_of_eq [main_arg0, main_arg1, main_arg2, main_v0, main_v1] (by decide) (by decide) Φ

/-- The five distinct buffers behind the six windows' arrays, each whole at the full share, give every window its
    array at its share: the features' buffer splits into its two halves, one for each of the windows on it. -/
theorem arrays_dealt (c : Dev nD) :
    (Pipeline.arrBufs spec0 c (V m c) : sProp 𝕄) ⊢ (dats m 0 c).arrays ((dats m 0 c).arrAt · 0) := by
  unfold Pipeline.arrBufs Pipeline.Dat.arrays
  rw [bigSep_W0, bigSep_arrs]
  simp only [View.set_whole]
  iintro ⟨HX, HD, HW, HB, HO⟩
  ihave HX' := (pointsTo_share (PosShare.mem_left_op_right fullShare)).1 $$ HX
  icases HX' with ⟨HXl, HXr⟩
  isplitl [HXl]; · iexact HXl
  isplitl [HXr]; · iexact HXr
  isplitl [HD]; · iexact HD
  isplitl [HW]; · iexact HW
  isplitl [HB]; · iexact HB
  iexact HO

/-! ## The run and the frame -/

set_option backward.isDefEq.respectTransparency.types false in
/-- From any memory with zero counters every weakly fair execution of @main terminates; the six windows' arrays end at
    what the library computes from the proof data and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := arrays_dealt m) (hΦ := fun _ _ => rfl)

/-- THE FRAME: @main terminates without a fault and the four argument arrays end as launched — the features, the
    distances and the weights are input windows' arrays, which the pipeline only reads; the bias is no window's array
    (the kernel reads its reshaped copy) and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_arg m main_arg0 (by decide) c))),
     ((h c).1 2).trans (((dats m 0 c).arrAt_in 2 rfl _).trans ((A_eq m c 2).trans (V_arg m main_arg1 (by decide) c))),
     ((h c).1 3).trans (((dats m 0 c).arrAt_in 3 rfl _).trans ((A_eq m c 3).trans (V_arg m main_arg2 (by decide) c))),
     ((h c).2 main_arg3 (Pipeline.mem_restRefs_of main_arg3 (by decide) (by decide))).trans (V_arg m main_arg3 (by decide) c)⟩)
    (run_main m ρ)

end Cert.KernelIdeal.SvFrame

end
-- ==== Proof.PairSpec.lean ====
/-
  The function both programs compute, over the extended reals.

  For a batch `b`, a row atom `i`, a column atom `j`, a coordinate `c` and a filter `k`:

    out[b, i, j, c, k] = max ( (s[b, i, k] + t[b, j, k] + bias[k]) * dist[b, i, j, c] , 0 )

  where `s[b, i, k] = ∑ f < 64, x[b, i, f] * w[f, k]` is the row atom's features against the UPPER half of the
  weight matrix and `t[b, j, k] = ∑ f < 64, x[b, j, f] * w[64 + f, k]` the column atom's against its LOWER half:
  the product of the concatenated pair `[x_i, x_j]` with `w`, split at the seam.  The sum `s + t + bias` is
  associated to the left, as both programs add it.
-/
import Idealize.ShloMosaic.PureOps.Ideal
import Idealize.ShloMosaic.Lib.ValueIdx

noncomputable section

namespace Cert.PairSpec

open Idealize.ShloMosaic Idealize.ShloMosaic.ValueIdx
open scoped BigOperators

/-- The features array, the distances, the weights, the bias, and the result: their literal shapes. -/
abbrev SX : Shape := ⟨3, ![16, 128, 64]⟩
abbrev SD : Shape := ⟨4, ![16, 128, 128, 3]⟩
abbrev SW : Shape := ⟨2, ![128, 128]⟩
abbrev SB : Shape := ⟨1, ![128]⟩
abbrev SO : Shape := ⟨5, ![16, 128, 128, 3, 128]⟩

/-- Row `off + f` of the weights, for `f < 64` and a seam offset `off ≤ 64`. -/
abbrev wrow (off : Nat) (hoff : off + 64 ≤ 128) (f : Fin 64) : Fin 128 := ⟨off + f.val, by have := f.isLt; omega⟩

/-- Atom `a` of batch `b` projected on filter `k` through the 64 weight rows starting at `off`. -/
def proj (x : FVec Ideal SX .f32) (w : FVec Ideal SW .f32) (off : Nat) (hoff : off + 64 ≤ 128)
    (b : Fin 16) (a : Fin 128) (k : Fin 128) : EReal :=
  ∑ f : Fin 64, x (ix3 b a f) * w (ix2 (wrow off hoff f) k)

/-- The pair term before the distances scale it: row projection + column projection + bias, left-associated. -/
def pair (x : FVec Ideal SX .f32) (w : FVec Ideal SW .f32) (bias : FVec Ideal SB .f32)
    (b : Fin 16) (i j : Fin 128) (k : Fin 128) : EReal :=
  proj x w 0 (by omega) b i k + proj x w 64 (by omega) b j k + bias (ix1 k)

/-- The result at explicit coordinates. -/
def outAt (x : FVec Ideal SX .f32) (d : FVec Ideal SD .f32) (w : FVec Ideal SW .f32) (bias : FVec Ideal SB .f32)
    (b : Fin 16) (i j : Fin 128) (c : Fin 3) (k : Fin 128) : EReal :=
  max (pair x w bias b i j k * d (ix4 b i j c)) 0

/-- The result array, as ONE function of the four argument arrays. -/
def G (x : FVec Ideal SX .f32) (d : FVec Ideal SD .f32) (w : FVec Ideal SW .f32) (bias : FVec Ideal SB .f32) :
    FVec Ideal SO .f32 :=
  fun o => outAt x d w bias (o 0) (o 1) (o 2) (o 3) (o 4)

theorem G_apply (x : FVec Ideal SX .f32) (d : FVec Ideal SD .f32) (w : FVec Ideal SW .f32) (bias : FVec Ideal SB .f32)
    (b : Fin 16) (i j : Fin 128) (c : Fin 3) (k : Fin 128) :
    G x d w bias (ix5 b i j c k) = outAt x d w bias b i j c k := rfl

end Cert.PairSpec

end
-- ==== Proof.PayAt.lean ====
/-
  The kernel body's stored value, read at an index of its block, over the body's five loaded blocks.
-/
import proofs.«167638_j9388798509584_1_alg».proof.Proof.Gen.KernelIdeal.Skeleton
import proofs.«167638_j9388798509584_1_alg».proof.Proof.PairSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx
open Cert.PairSpec (wrow)
open scoped BigOperators

/-! ## The two products -/

/-- The left operand's row is the result's row. -/
private theorem lhsA_0 (i : S128x128.Idx) (q : dot_S128x64_S64x128_S128x128_1_0_0_1_n_n.contr.Idx) :
    (dot_S128x64_S64x128_S128x128_1_0_0_1_n_n.lhsIdx i q 0).val = (i 0).val := by
  unfold DotDims.lhsIdx
  rw [dif_neg (show ¬(0 : Fin S128x64.rank) ∈ dot_S128x64_S64x128_S128x128_1_0_0_1_n_n.lhsBatch by decide), dif_pos (show (0 : Fin S128x64.rank) ∈ dot_S128x64_S64x128_S128x128_1_0_0_1_n_n.lhsNonContracting by decide)]
  rfl
/-- The left operand's column is the contraction coordinate. -/
private theorem lhsA_1 (i : S128x128.Idx) (q : dot_S128x64_S64x128_S128x128_1_0_0_1_n_n.contr.Idx) :
    (dot_S128x64_S64x128_S128x128_1_0_0_1_n_n.lhsIdx i q 1).val = (q ⟨0, by decide⟩).val :=
  dot_S128x64_S64x128_S128x128_1_0_0_1_n_n.lhsIdx_val_of_single rfl i q
/-- The right operand's row is the contraction coordinate. -/
private theorem rhsA_0 (i : S128x128.Idx) (q : dot_S128x64_S64x128_S128x128_1_0_0_1_n_n.contr.Idx) :
    (dot_S128x64_S64x128_S128x128_1_0_0_1_n_n.rhsIdx i q 0).val = (q ⟨0, by decide⟩).val :=
  dot_S128x64_S64x128_S128x128_1_0_0_1_n_n.rhsIdx_val_of_single rfl i q
/-- The right operand's column is the result's column. -/
private theorem rhsA_1 (i : S128x128.Idx) (q : dot_S128x64_S64x128_S128x128_1_0_0_1_n_n.contr.Idx) :
    (dot_S128x64_S64x128_S128x128_1_0_0_1_n_n.rhsIdx i q 1).val = (i 1).val := by
  unfold DotDims.rhsIdx
  rw [dif_neg (show ¬(1 : Fin S64x128.rank) ∈ dot_S128x64_S64x128_S128x128_1_0_0_1_n_n.rhsBatch by decide), dif_pos (show (1 : Fin S64x128.rank) ∈ dot_S128x64_S64x128_S128x128_1_0_0_1_n_n.rhsNonContracting by decide)]
  rfl

/-- The product into a zero accumulator, at row `p` and column `k`: the sum over the 64 shared coordinates. -/
private theorem mmA_apply (x : FVec Ideal S128x64 .bf16) (w : FVec Ideal S64x128 .bf16) (p : Fin 128) (k : Fin 128) :
    matmul (F := Ideal) dot_S128x64_S64x128_S128x128_1_0_0_1_n_n none x w (constant (F := Ideal) S128x128 .f32 0x00000000#32) (ix2 p k)
      = ∑ f : Fin 64, x (ix2 p f) * w (ix2 f k) := by
  refine (Ideal.matmul_constant_zero_apply dot_S128x64_S64x128_S128x128_1_0_0_1_n_n none x w (ix2 p k)).trans ?_
  rw [← Equiv.sum_comp (contrEquiv1 dot_S128x64_S64x128_S128x128_1_0_0_1_n_n 64 rfl rfl).symm]
  refine Finset.sum_congr rfl fun f _ => ?_
  have hk := contrEquiv1_symm_val dot_S128x64_S64x128_S128x128_1_0_0_1_n_n 64 rfl rfl f
  have el : dot_S128x64_S64x128_S128x128_1_0_0_1_n_n.lhsIdx (ix2 p k) ((contrEquiv1 dot_S128x64_S64x128_S128x128_1_0_0_1_n_n 64 rfl rfl).symm f) = ix2 p f := funext fun a => Fin.ext (by
    match a with
    | ⟨0, _⟩ => exact lhsA_0 _ _
    | ⟨1, _⟩ => exact (lhsA_1 _ _).trans hk)
  have er : dot_S128x64_S64x128_S128x128_1_0_0_1_n_n.rhsIdx (ix2 p k) ((contrEquiv1 dot_S128x64_S64x128_S128x128_1_0_0_1_n_n 64 rfl rfl).symm f) = ix2 f k := funext fun a => Fin.ext (by
    match a with
    | ⟨0, _⟩ => exact (rhsA_0 _ _).trans hk
    | ⟨1, _⟩ => exact rhsA_1 _ _)
  rw [el, er]

/-- The left operand's row is the result's row. -/
private theorem lhsB_0 (i : S32x128.Idx) (q : dot_S32x64_S64x128_S32x128_1_0_0_1_n_n.contr.Idx) :
    (dot_S32x64_S64x128_S32x128_1_0_0_1_n_n.lhsIdx i q 0).val = (i 0).val := by
  unfold DotDims.lhsIdx
  rw [dif_neg (show ¬(0 : Fin S32x64.rank) ∈ dot_S32x64_S64x128_S32x128_1_0_0_1_n_n.lhsBatch by decide), dif_pos (show (0 : Fin S32x64.rank) ∈ dot_S32x64_S64x128_S32x128_1_0_0_1_n_n.lhsNonContracting by decide)]
  rfl
/-- The left operand's column is the contraction coordinate. -/
private theorem lhsB_1 (i : S32x128.Idx) (q : dot_S32x64_S64x128_S32x128_1_0_0_1_n_n.contr.Idx) :
    (dot_S32x64_S64x128_S32x128_1_0_0_1_n_n.lhsIdx i q 1).val = (q ⟨0, by decide⟩).val :=
  dot_S32x64_S64x128_S32x128_1_0_0_1_n_n.lhsIdx_val_of_single rfl i q
/-- The right operand's row is the contraction coordinate. -/
private theorem rhsB_0 (i : S32x128.Idx) (q : dot_S32x64_S64x128_S32x128_1_0_0_1_n_n.contr.Idx) :
    (dot_S32x64_S64x128_S32x128_1_0_0_1_n_n.rhsIdx i q 0).val = (q ⟨0, by decide⟩).val :=
  dot_S32x64_S64x128_S32x128_1_0_0_1_n_n.rhsIdx_val_of_single rfl i q
/-- The right operand's column is the result's column. -/
private theorem rhsB_1 (i : S32x128.Idx) (q : dot_S32x64_S64x128_S32x128_1_0_0_1_n_n.contr.Idx) :
    (dot_S32x64_S64x128_S32x128_1_0_0_1_n_n.rhsIdx i q 1).val = (i 1).val := by
  unfold DotDims.rhsIdx
  rw [dif_neg (show ¬(1 : Fin S64x128.rank) ∈ dot_S32x64_S64x128_S32x128_1_0_0_1_n_n.rhsBatch by decide), dif_pos (show (1 : Fin S64x128.rank) ∈ dot_S32x64_S64x128_S32x128_1_0_0_1_n_n.rhsNonContracting by decide)]
  rfl

/-- The product into a zero accumulator, at row `p` and column `k`: the sum over the 64 shared coordinates. -/
private theorem mmB_apply (x : FVec Ideal S32x64 .bf16) (w : FVec Ideal S64x128 .bf16) (p : Fin 32) (k : Fin 128) :
    matmul (F := Ideal) dot_S32x64_S64x128_S32x128_1_0_0_1_n_n none x w (constant (F := Ideal) S32x128 .f32 0x00000000#32) (ix2 p k)
      = ∑ f : Fin 64, x (ix2 p f) * w (ix2 f k) := by
  refine (Ideal.matmul_constant_zero_apply dot_S32x64_S64x128_S32x128_1_0_0_1_n_n none x w (ix2 p k)).trans ?_
  rw [← Equiv.sum_comp (contrEquiv1 dot_S32x64_S64x128_S32x128_1_0_0_1_n_n 64 rfl rfl).symm]
  refine Finset.sum_congr rfl fun f _ => ?_
  have hk := contrEquiv1_symm_val dot_S32x64_S64x128_S32x128_1_0_0_1_n_n 64 rfl rfl f
  have el : dot_S32x64_S64x128_S32x128_1_0_0_1_n_n.lhsIdx (ix2 p k) ((contrEquiv1 dot_S32x64_S64x128_S32x128_1_0_0_1_n_n 64 rfl rfl).symm f) = ix2 p f := funext fun a => Fin.ext (by
    match a with
    | ⟨0, _⟩ => exact lhsB_0 _ _
    | ⟨1, _⟩ => exact (lhsB_1 _ _).trans hk)
  have er : dot_S32x64_S64x128_S32x128_1_0_0_1_n_n.rhsIdx (ix2 p k) ((contrEquiv1 dot_S32x64_S64x128_S32x128_1_0_0_1_n_n 64 rfl rfl).symm f) = ix2 f k := funext fun a => Fin.ext (by
    match a with
    | ⟨0, _⟩ => exact (rhsB_0 _ _).trans hk
    | ⟨1, _⟩ => exact rhsB_1 _ _)
  rw [el, er]

/-! ## Layout operations at explicit coordinates -/

section Layout
variable {α : Type}

/-- A coordinate below `n` is `0` when `n = 1`: the form a broadcast asks of each axis it keeps. -/
private theorem val_keep {n : ℕ} (x : Fin n) : x.val = if n = 1 then 0 else x.val := by
  split
  · have := x.isLt; omega
  · rfl

/-- An `[a, b]` array cast to `[a, 1, b]` reads, at `(i, u, j)`, the operand at `(i, j)`. -/
private theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to `[1, 1, a]` reads, at `(u, v, i)`, the operand at `i`. -/
private theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv, Nat.zero_mul, Nat.zero_add])

/-- An `[a, b, c]` array cast to `[a, b, 1, c]` reads, at `(i, j, u, k)`, the operand at `(i, j, k)`. -/
private theorem shapeCast_abc_ab1c_apply {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_four, Shape.rowMajor_val_three]
    show (i.val * b + j.val) * c + k.val = ((i.val * b + j.val) * 1 + u.val) * c + k.val
    rw [hu, Nat.mul_one, Nat.add_zero])

/-- An `[a, b, c]` array cast to `[a, b, c, 1]` reads, at `(i, j, k, u)`, the operand at `(i, j, k)`. -/
private theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, d]` array cast to `[1, a, b, c, d]` reads, at `(u, i, j, k, l)`, the operand at `(i, j, k, l)`. -/
private theorem shapeCast_abcd_1abcd_apply {a b c d : ℕ} (x : (⟨4, ![a, b, c, d]⟩ : Shape).Idx → α)
    (h : (⟨4, ![a, b, c, d]⟩ : Shape).ShapeCasts ⟨5, ![1, a, b, c, d]⟩)
    (u : Fin 1) (i : Fin a) (j : Fin b) (k : Fin c) (l : Fin d) :
    shapeCast ⟨5, ![1, a, b, c, d]⟩ x h (ix5 u i j k l) = x (ix4 i j k l) :=
  shapeCast_apply x h _ _ (by
    have hu : u.val = 0 := by omega
    rw [Shape.rowMajor_val_five, Shape.rowMajor_val_four]
    show ((i.val * b + j.val) * c + k.val) * d + l.val = (((u.val * a + i.val) * b + j.val) * c + k.val) * d + l.val
    rw [hu, Nat.zero_mul, Nat.zero_add])

/-- An `[a, 1, c]` array broadcast to `[a, b, c]` reads, at `(i, j, k)`, the operand at `(i, 0, k)`. -/
private theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ => exact val_keep i
  | ⟨1, _⟩ => rfl
  | ⟨2, _⟩ => exact val_keep k

/-- A `[1, b, c]` array broadcast to `[a, b, c]` reads, at `(i, j, k)`, the operand at `(0, j, k)`. -/
private theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ => exact val_keep j
  | ⟨2, _⟩ => exact val_keep k

/-- A `[1, 1, c]` array broadcast to `[a, b, c]` reads, at `(i, j, k)`, the operand at `(0, 0, k)`. -/
private theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ => exact val_keep k

/-- An `[a, b, 1, d]` array broadcast to `[a, b, c, d]` reads, at `(i, j, k, l)`, the operand at `(i, j, 0, l)`. -/
private theorem broadcastTo_ab1d_abcd_apply {a b c d : ℕ} (v : (⟨4, ![a, b, 1, d]⟩ : Shape).Idx → α)
    (h : (⟨4, ![a, b, 1, d]⟩ : Shape).Broadcasts ⟨4, ![a, b, c, d]⟩) (i : Fin a) (j : Fin b) (k : Fin c) (l : Fin d) :
    broadcastTo ⟨4, ![a, b, c, d]⟩ v h (ix4 i j k l) = v (ix4 i j (0 : Fin 1) l) := by
  refine broadcastTo_apply v h (ix4 i j k l) (ix4 i j (0 : Fin 1) l) fun ax => ?_
  match ax with
  | ⟨0, _⟩ => exact val_keep i
  | ⟨1, _⟩ => exact val_keep j
  | ⟨2, _⟩ => rfl
  | ⟨3, _⟩ => exact val_keep l

/-- An `[a, b, c, 1]` array broadcast to `[a, b, c, d]` reads, at `(i, j, k, l)`, the operand at `(i, j, k, 0)`. -/
private theorem broadcastTo_abc1_abcd_apply {a b c d : ℕ} (v : (⟨4, ![a, b, c, 1]⟩ : Shape).Idx → α)
    (h : (⟨4, ![a, b, c, 1]⟩ : Shape).Broadcasts ⟨4, ![a, b, c, d]⟩) (i : Fin a) (j : Fin b) (k : Fin c) (l : Fin d) :
    broadcastTo ⟨4, ![a, b, c, d]⟩ v h (ix4 i j k l) = v (ix4 i j k (0 : Fin 1)) := by
  refine broadcastTo_apply v h (ix4 i j k l) (ix4 i j k (0 : Fin 1)) fun ax => ?_
  match ax with
  | ⟨0, _⟩ => exact val_keep i
  | ⟨1, _⟩ => exact val_keep j
  | ⟨2, _⟩ => exact val_keep k
  | ⟨3, _⟩ => rfl

end Layout

/-! ## The stored value at an index -/

/-- At `Ideal` the stored block's entry `(0, i, j, c, k)` is `max ((s + t + bias) * dist, 0)`: `s` the row block's
    atom `i` against the upper 64 weight rows, `t` the column block's atom `j` against the lower 64, at filter `k`. -/
theorem pay_at (v0 : Vec Ideal S1x128x64 .f32) (v3 : Vec Ideal S1x32x64 .f32) (v6 : Vec Ideal S128x128 .f32)
    (v13 : Vec Ideal S1x128 .f32) (v23 : Vec Ideal S1x128x32x3 .f32)
    (i : Fin 128) (j : Fin 32) (c : Fin 3) (k : Fin 128) :
    k0_pay1 (F := Ideal) v0 v3 v6 v13 v23 (ix5 (0 : Fin 1) i j c k)
      = max (((∑ f : Fin 64, v0 (ix3 (0 : Fin 1) i f) * v6 (ix2 (wrow 0 (by omega) f) k))
              + (∑ f : Fin 64, v3 (ix3 (0 : Fin 1) j f) * v6 (ix2 (wrow 64 (by omega) f) k))
              + v13 (ix2 (0 : Fin 1) k)) * v23 (ix4 (0 : Fin 1) i j c)) 0 := by
  unfold k0_pay1
  -- the index goes through the last cast, the maximum, the product, the two broadcasts along the coordinate and
  -- filter axes, the two sums with their broadcasts along the atom axes, down to the two products and the loaded blocks
  simp only [shapeCast_abcd_1abcd_apply, maximumf_apply, mulf_apply, addf_apply, broadcast_apply,
    broadcastTo_ab1d_abcd_apply, broadcastTo_abc1_abcd_apply, shapeCast_abc_ab1c_apply, shapeCast_abc_abc1_apply,
    broadcastTo_a1c_abc_apply, broadcastTo_1bc_abc_apply, broadcastTo_11c_abc_apply,
    shapeCast_ab_a1b_apply, shapeCast_ab_1ab_apply, shapeCast_a_11a_apply, shapeCast_1a_a_apply,
    shapeCast_1abc_abc_apply, mmA_apply, mmB_apply, truncf_apply, shapeCast_1ab_ab_apply, slice2_axis0_eq]
  -- what is left: the zero word denotes zero, and the sliced rows `0 + f`, `64 + f` are `wrow`'s
  show max _ (Ideal.ofBits .f32 0x00000000#32) = _
  rw [Ideal.ofBits_zero_f32]

end Cert.KernelIdeal.PayValue

end
-- ==== Proof.SvValue.lean ====
/-
  The result array after the idealized kernel's run, as ONE function of the four argument arrays.

  Grid point `t = 4 · b + jt` writes back the block `(b, all i, 32 · jt + j', all c, all k)` of the result; the body's
  value there is the pair function of `PairSpec` read at that block, because each input block is the same
  restriction of its argument array (row atoms: batch `b` whole; column atoms: rows `32 · jt + j'` of batch `b`;
  distances: the tile `(b, i, 32 · jt + j', c)`; weights and bias whole).  The 64 blocks tile the result array.
-/
import proofs.«167638_j9388798509584_1_alg».proof.Proof.SvFrameI
import proofs.«167638_j9388798509584_1_alg».proof.Proof.PayAt
import proofs.«167638_j9388798509584_1_alg».proof.Proof.PairSpec
import Idealize.ShloMosaic.Lib.Pipeline.Value
import Idealize.ShloMosaic.Lib.ValueIdx
import Idealize.ShloMosaic.Lib.StableHlo.Run

set_option maxRecDepth 16384

noncomputable section

namespace Cert.KernelIdeal.SvValue

open Cert.KernelIdeal Cert.KernelIdeal.Gen Cert.KernelIdeal.SvFrame
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-! ## The zero offsets of the body's whole-buffer accesses -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-! ## The block indices over the grid -/

/-- The printed index maps, decided over the 64 points: each input block sits where the output block's batch and
    column tile say, on its other axes at 0; the output's batch is below 16, its column tile below 4. -/
theorem idx_facts : ∀ t : Fin cfg0.N,
    win0_0.index t (0 : Fin 3) = win0_5.index t (0 : Fin 5) ∧ win0_0.index t (1 : Fin 3) = 0 ∧ win0_0.index t (2 : Fin 3) = 0
    ∧ win0_1.index t (0 : Fin 3) = win0_5.index t (0 : Fin 5) ∧ win0_1.index t (1 : Fin 3) = win0_5.index t (2 : Fin 5) ∧ win0_1.index t (2 : Fin 3) = 0
    ∧ win0_2.index t (0 : Fin 4) = win0_5.index t (0 : Fin 5) ∧ win0_2.index t (1 : Fin 4) = 0 ∧ win0_2.index t (2 : Fin 4) = win0_5.index t (2 : Fin 5) ∧ win0_2.index t (3 : Fin 4) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 5) = 0 ∧ win0_5.index t (3 : Fin 5) = 0 ∧ win0_5.index t (4 : Fin 5) = 0
    ∧ win0_5.index t (0 : Fin 5) ≤ 15 ∧ win0_5.index t (2 : Fin 5) ≤ 3 :=
  (by decide +kernel : ∀ t : Fin grid0.N, _)

/-- Every batch and column tile is some point's. -/
theorem idx_onto : ∀ (q0 : Fin 16) (q2 : Fin 4), ∃ t : Fin cfg0.N, win0_5.index t = ![q0.val, 0, q2.val, 0, 0] :=
  (by decide +kernel : ∀ (q0 : Fin 16) (q2 : Fin 4), ∃ t : Fin grid0.N, win0_5.index t = ![q0.val, 0, q2.val, 0, 0])

/-! ## The input blocks, read at coordinates -/

/-- The row-atom block at point `t` is batch `B`'s slab of the features, `B` the output block's batch. -/
theorem row_read (c : Dev nD) (t : Fin cfg0.N) (B : Fin 16) (hB : B.val = win0_5.index t (0 : Fin 5))
    (u : Fin 1) (i : Fin 128) (f : Fin 64) :
    iblk (F := Ideal) m c 0 t (ix3 u i f) = (m ((c.tc : Thread nD τ).loc main_arg0)) (ix3 B i f) := by
  obtain ⟨e0, e1, e2, -⟩ := idx_facts t
  show V m c main_arg0 (((cfg0.win 0).blk t).view.emb (ix3 u i f)) = _
  rw [V_arg m main_arg0 (by decide) c]
  refine congrArg _ (funext fun a => Fin.ext ?_)
  match a with
  | ⟨0, _⟩ => show win0_0.index t (0 : Fin 3) * 1 + 1 * u.val = B.val; omega
  | ⟨1, _⟩ => show win0_0.index t (1 : Fin 3) * 128 + 1 * i.val = i.val; omega
  | ⟨2, _⟩ => show win0_0.index t (2 : Fin 3) * 64 + 1 * f.val = f.val; omega

/-- The column-atom block at point `t` is the rows `32 · jt + j` of batch `B`'s slab, `jt` the output block's column tile. -/
theorem col_read (c : Dev nD) (t : Fin cfg0.N) (B : Fin 16) (hB : B.val = win0_5.index t (0 : Fin 5))
    (u : Fin 1) (j : Fin 32) (J : Fin 128) (hJ : J.val = win0_5.index t (2 : Fin 5) * 32 + j.val) (f : Fin 64) :
    iblk (F := Ideal) m c 1 t (ix3 u j f) = (m ((c.tc : Thread nD τ).loc main_arg0)) (ix3 B J f) := by
  obtain ⟨-, -, -, e0, e1, e2, -⟩ := idx_facts t
  show V m c main_arg0 (((cfg0.win 1).blk t).view.emb (ix3 u j f)) = _
  rw [V_arg m main_arg0 (by decide) c]
  refine congrArg _ (funext fun a => Fin.ext ?_)
  match a with
  | ⟨0, _⟩ => show win0_1.index t (0 : Fin 3) * 1 + 1 * u.val = B.val; omega
  | ⟨1, _⟩ => show win0_1.index t (1 : Fin 3) * 32 + 1 * j.val = J.val; omega
  | ⟨2, _⟩ => show win0_1.index t (2 : Fin 3) * 64 + 1 * f.val = f.val; omega

/-- The distances' block at point `t` is the tile `(B, i, 32 · jt + j, cc)`. -/
theorem dist_read (c : Dev nD) (t : Fin cfg0.N) (B : Fin 16) (hB : B.val = win0_5.index t (0 : Fin 5))
    (u : Fin 1) (i : Fin 128) (j : Fin 32) (J : Fin 128) (hJ : J.val = win0_5.index t (2 : Fin 5) * 32 + j.val) (cc : Fin 3) :
    iblk (F := Ideal) m c 2 t (ix4 u i j cc) = (m ((c.tc : Thread nD τ).loc main_arg1)) (ix4 B i J cc) := by
  obtain ⟨-, -, -, -, -, -, e0, e1, e2, e3, -⟩ := idx_facts t
  show V m c main_arg1 (((cfg0.win 2).blk t).view.emb (ix4 u i j cc)) = _
  rw [V_arg m main_arg1 (by decide) c]
  refine congrArg _ (funext fun a => Fin.ext ?_)
  match a with
  | ⟨0, _⟩ => show win0_2.index t (0 : Fin 4) * 1 + 1 * u.val = B.val; omega
  | ⟨1, _⟩ => show win0_2.index t (1 : Fin 4) * 128 + 1 * i.val = i.val; omega
  | ⟨2, _⟩ => show win0_2.index t (2 : Fin 4) * 32 + 1 * j.val = J.val; omega
  | ⟨3, _⟩ => show win0_2.index t (3 : Fin 4) * 3 + 1 * cc.val = cc.val; omega

/-- The weights' block is the whole matrix at every point. -/
theorem w_read (c : Dev nD) (t : Fin cfg0.N) (r : Fin 128) (k : Fin 128) :
    iblk (F := Ideal) m c 3 t (ix2 r k) = (m ((c.tc : Thread nD τ).loc main_arg2)) (ix2 r k) := by
  obtain ⟨-, -, -, -, -, -, -, -, -, -, e0, e1, -⟩ := idx_facts t
  show V m c main_arg2 (((cfg0.win 3).blk t).view.emb (ix2 r k)) = _
  rw [V_arg m main_arg2 (by decide) c]
  refine congrArg _ (funext fun a => Fin.ext ?_)
  match a with
  | ⟨0, _⟩ => show win0_3.index t (0 : Fin 2) * 128 + 1 * r.val = r.val; omega
  | ⟨1, _⟩ => show win0_3.index t (1 : Fin 2) * 128 + 1 * k.val = k.val; omega

/-- The bias row the region finds is the bias vector, cast to one row. -/
theorem bias_entry (c : Dev nD) :
    (V (F := Ideal) m c main_v0 : S1x128.Idx → EReal) = shapeCast S1x128 (m ((c.tc : Thread nD τ).loc main_arg3)) shapeCasts_S128_S1x128 := by
  dsimp only [V, hostOps0]; after_results; rfl

/-- The bias block is that row at every point: the bias vector at the filter. -/
theorem bias_read (c : Dev nD) (t : Fin cfg0.N) (u : Fin 1) (k : Fin 128) :
    iblk (F := Ideal) m c 4 t (ix2 u k) = (m ((c.tc : Thread nD τ).loc main_arg3)) (ix1 k) := by
  obtain ⟨-, -, -, -, -, -, -, -, -, -, -, -, e0, e1, -⟩ := idx_facts t
  have hu : u.val = 0 := by omega
  show (V m c main_v0 : S1x128.Idx → EReal) (((cfg0.win 4).blk t).view.emb (ix2 u k)) = _
  rw [bias_entry m c]
  refine (shapeCast_apply _ shapeCasts_S128_S1x128 _ (ix1 k) ?_)
  rw [Shape.rowMajor_val_one, Shape.rowMajor_val_two]
  show k.val = (win0_4.index t (0 : Fin 2) * 1 + 1 * u.val) * 128 + (win0_4.index t (1 : Fin 2) * 128 + 1 * k.val)
  omega

/-! ## What a point writes back -/

/-- An element of the output block at point `t` sits in the result array at the block's batch and column tile. -/
theorem out_emb (t : Fin cfg0.N) (B : Fin 16) (hB : B.val = win0_5.index t (0 : Fin 5))
    (u : Fin 1) (i : Fin 128) (j : Fin 32) (J : Fin 128) (hJ : J.val = win0_5.index t (2 : Fin 5) * 32 + j.val)
    (cc : Fin 3) (k : Fin 128) :
    ((cfg0.win 5).blk t).view.emb (ix5 u i j cc k) = ix5 B i J cc k := by
  obtain ⟨-, -, -, -, -, -, -, -, -, -, -, -, -, -, e1, e3, e4, -⟩ := idx_facts t
  refine funext fun a => Fin.ext ?_
  match a with
  | ⟨0, _⟩ => show win0_5.index t (0 : Fin 5) * 1 + 1 * u.val = B.val; omega
  | ⟨1, _⟩ => show win0_5.index t (1 : Fin 5) * 128 + 1 * i.val = i.val; omega
  | ⟨2, _⟩ => show win0_5.index t (2 : Fin 5) * 32 + 1 * j.val = J.val; omega
  | ⟨3, _⟩ => show win0_5.index t (3 : Fin 5) * 3 + 1 * cc.val = cc.val; omega
  | ⟨4, _⟩ => show win0_5.index t (4 : Fin 5) * 128 + 1 * k.val = k.val; omega

/-- WHAT POINT `t` WRITES BACK is block `t` of the pair function of the argument arrays. -/
theorem flushed_eq (c : Dev nD) (t : Fin cfg0.N) :
    (dats (F := Ideal) m 0 c).flushed 5 t = ((cfg0.win 5).blk t).view.read (Elt Ideal)
      (Cert.PairSpec.G (m ((c.tc : Thread nD τ).loc main_arg0)) (m ((c.tc : Thread nD τ).loc main_arg1)) (m ((c.tc : Thread nD τ).loc main_arg2)) (m ((c.tc : Thread nD τ).loc main_arg3))) := by
  show (cfg0.win 5).cut (grid0.coords t) ((dats m 0 c).after 5 t) = _
  rw [after5]
  unfold outBlk
  rw [View.canon_unit_zero hz5]
  simp only [View.ld_unit_zero (S := S1x128x64) hz3, View.ld_unit_zero (S := S1x32x64) hz3,
    View.ld_unit_zero (S := S1x128x32x3) hz4, View.ld_unit_zero (S := S128x128) hz2, View.ld_unit_zero (S := S1x128) hz2]
  funext y
  obtain ⟨u, i, j, cc, k, rfl⟩ : ∃ (u : Fin 1) (i : Fin 128) (j : Fin 32) (cc : Fin 3) (k : Fin 128), y = ix5 u i j cc k :=
    ⟨y 0, y 1, y 2, y 3, y 4, eq_ix5 y⟩
  obtain rfl : u = 0 := Subsingleton.elim _ _
  have hb : win0_5.index t (0 : Fin 5) ≤ 15 := (idx_facts t).2.2.2.2.2.2.2.2.2.2.2.2.2.2.2.2.2.1
  have hj : win0_5.index t (2 : Fin 5) ≤ 3 := (idx_facts t).2.2.2.2.2.2.2.2.2.2.2.2.2.2.2.2.2.2
  have hjl : j.val < 32 := j.isLt
  -- the block's batch and the column atom's row in the array
  let B : Fin 16 := ⟨win0_5.index t (0 : Fin 5), by omega⟩
  let J : Fin 128 := ⟨win0_5.index t (2 : Fin 5) * 32 + j.val, by omega⟩
  refine (Cert.KernelIdeal.PayValue.pay_at (iblk m c 0 t) (iblk m c 1 t) (iblk m c 3 t) (iblk m c 4 t) (iblk m c 2 t) i j cc k).trans ?_
  show _ = Cert.PairSpec.G (m ((c.tc : Thread nD τ).loc main_arg0)) (m ((c.tc : Thread nD τ).loc main_arg1)) (m ((c.tc : Thread nD τ).loc main_arg2)) (m ((c.tc : Thread nD τ).loc main_arg3)) (((cfg0.win 5).blk t).view.emb (ix5 (0 : Fin 1) i j cc k))
  rw [out_emb t B rfl 0 i j J rfl cc k, Cert.PairSpec.G_apply]
  simp only [row_read m c t B rfl, col_read m c t B rfl 0 j J rfl, dist_read m c t B rfl 0 i j J rfl cc,
    w_read m c t, bias_read m c t]
  rfl

/-! ## The 64 blocks tile the result array -/

/-- An index of the result array is in point `t`'s block iff each coordinate is in the block's range on its axis. -/
theorem mem_blk (t : Fin cfg0.N) (o : S16x128x128x3x128.Idx) :
    o ∈ ((cfg0.win 5).blk t).view.set ↔ ∀ a : Fin 5, win0_5.index t a * S1x128x32x3x128.size a ≤ (o a).val
      ∧ (o a).val < win0_5.index t a * S1x128x32x3x128.size a + S1x128x32x3x128.size a := by
  show o ∈ ((View.whole main_v1).slice (win0_5.rect t)).set ↔ _
  rw [View.set_slice_whole, Rect.mem_set_unit]
  exact Iff.rfl

/-- Every index `(b, i, j, cc, k)` of the result is in the block of the point with batch `b` and column tile `j / 32`,
    and every point writes its block back. -/
theorem cover (o : S16x128x128x3x128.Idx) :
    ∃ t : Fin cfg0.N, (cfg0.win 5).flush t = true ∧ o ∈ ((cfg0.win 5).blk t).view.set := by
  have h0 : (o 0).val < 16 := (o 0).isLt
  have h1 : (o 1).val < 128 := (o 1).isLt
  have h2 : (o 2).val < 128 := (o 2).isLt
  have h3 : (o 3).val < 3 := (o 3).isLt
  have h4 : (o 4).val < 128 := (o 4).isLt
  obtain ⟨t, ht⟩ := idx_onto ⟨(o 0).val, h0⟩ ⟨(o 2).val / 32, by omega⟩
  have q0 : win0_5.index t (0 : Fin 5) = (o 0).val := congrFun ht 0
  have q1 : win0_5.index t (1 : Fin 5) = 0 := congrFun ht 1
  have q2 : win0_5.index t (2 : Fin 5) = (o 2).val / 32 := congrFun ht 2
  have q3 : win0_5.index t (3 : Fin 5) = 0 := congrFun ht 3
  have q4 : win0_5.index t (4 : Fin 5) = 0 := congrFun ht 4
  refine ⟨t, flush0_5 t, ?_⟩
  rw [mem_blk]
  intro a
  match a with
  | ⟨0, _⟩ => show win0_5.index t (0 : Fin 5) * 1 ≤ (o 0).val ∧ (o 0).val < win0_5.index t (0 : Fin 5) * 1 + 1; omega
  | ⟨1, _⟩ => show win0_5.index t (1 : Fin 5) * 128 ≤ (o 1).val ∧ (o 1).val < win0_5.index t (1 : Fin 5) * 128 + 128; omega
  | ⟨2, _⟩ => show win0_5.index t (2 : Fin 5) * 32 ≤ (o 2).val ∧ (o 2).val < win0_5.index t (2 : Fin 5) * 32 + 32; omega
  | ⟨3, _⟩ => show win0_5.index t (3 : Fin 5) * 3 ≤ (o 3).val ∧ (o 3).val < win0_5.index t (3 : Fin 5) * 3 + 3; omega
  | ⟨4, _⟩ => show win0_5.index t (4 : Fin 5) * 128 ≤ (o 4).val ∧ (o 4).val < win0_5.index t (4 : Fin 5) * 128 + 128; omega

/-- THE RESULT ARRAY after the run is the pair function of the four argument arrays as launched. -/
theorem final (c : Dev nD) :
    (dats (F := Ideal) m 0 c).arrAt 5 cfg0.N
      = Cert.PairSpec.G (m ((c.tc : Thread nD τ).loc main_arg0)) (m ((c.tc : Thread nD τ).loc main_arg1))
          (m ((c.tc : Thread nD τ).loc main_arg2)) (m ((c.tc : Thread nD τ).loc main_arg3)) := by
  exact (dats m 0 c).arrAt_eq_of_cover 5
    (Cert.PairSpec.G (m ((c.tc : Thread nD τ).loc main_arg0)) (m ((c.tc : Thread nD τ).loc main_arg1)) (m ((c.tc : Thread nD τ).loc main_arg2)) (m ((c.tc : Thread nD τ).loc main_arg3)))
    (fun t _ => flushed_eq m c t) cover

/-- The run, read: the result at the pair function of the arguments, the arguments unchanged. -/
theorem run : θ_run defs (onTc (τ := τ) (main (F := Ideal))) ⟨m, fun _ => 0, ρ⟩ fun r => ∀ c : Dev nD,
      r.2.mem ((c.tc : Thread nD τ).loc main_v1)
        = Cert.PairSpec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 5).trans (final m c),
     ((h c).1 0).trans (((dats m 0 c).arrAt_in 0 rfl _).trans ((A_eq m c 0).trans (V_arg m main_arg0 (by decide) c))),
     ((h c).1 2).trans (((dats m 0 c).arrAt_in 2 rfl _).trans ((A_eq m c 2).trans (V_arg m main_arg1 (by decide) c))),
     ((h c).1 3).trans (((dats m 0 c).arrAt_in 3 rfl _).trans ((A_eq m c 3).trans (V_arg m main_arg2 (by decide) c))),
     ((h c).2 main_arg3 (Pipeline.mem_restRefs_of main_arg3 (by decide) (by decide))).trans (V_arg m main_arg3 (by decide) c)⟩)
    (run_main m ρ)

end Cert.KernelIdeal.SvValue

end
-- ==== Proof.RefIsPair.lean ====
/-
  The reference's result, read index by index, is the pair function of `PairSpec`.
-/
import proofs.«167638_j9388798509584_1_alg».proof.Proof.Gen.ReferenceIdeal.Read
import proofs.«167638_j9388798509584_1_alg».proof.Proof.PairSpec

noncomputable section

namespace Cert.ReferenceIdeal.RefValue

open Cert.ReferenceIdeal Cert.ReferenceIdeal.Gen Idealize.ShloMosaic Idealize.ShloMosaic.ValueIdx
open scoped BigOperators

/-! ## The composed index maps at explicit coordinates

Each operand of the reference's last stage is read through a chain of broadcasts, and the two products through a
slice of the weights. At the result's coordinates `(b, i, j, c, k)` every chain lands on an index with literal
coordinates. -/

/-- The row product's place: the broadcasts forget the column atom `j` and the coordinate `c`. -/
private theorem row_place (b : Fin 16) (i j : Fin 128) (c : Fin 3) (k : Fin 128) :
    Read.idx_main_v4 (Read.idx_main_v6 (Read.idx_main_v12 (Read.idx_main_v14 (ix5 b i j c k)))) = ix3 b i k :=
  funext fun a => Fin.ext (by match a with | ⟨0, _⟩ => rfl | ⟨1, _⟩ => rfl | ⟨2, _⟩ => rfl)

/-- The column product's place: the broadcasts forget the row atom `i` and the coordinate `c`. -/
private theorem col_place (b : Fin 16) (i j : Fin 128) (c : Fin 3) (k : Fin 128) :
    Read.idx_main_v5 (Read.idx_main_v7 (Read.idx_main_v12 (Read.idx_main_v14 (ix5 b i j c k)))) = ix3 b j k :=
  funext fun a => Fin.ext (by match a with | ⟨0, _⟩ => rfl | ⟨1, _⟩ => rfl | ⟨2, _⟩ => rfl)

/-- The bias's place: only the filter `k` survives. -/
private theorem bias_place (b : Fin 16) (i j : Fin 128) (c : Fin 3) (k : Fin 128) :
    Read.idx_main_v9 (Read.idx_main_v10 (Read.idx_main_v12 (Read.idx_main_v14 (ix5 b i j c k)))) = ix1 k :=
  funext fun a => Fin.ext (by match a with | ⟨0, _⟩ => rfl)

/-- The distance's place: the broadcasts forget the filter `k`. -/
private theorem dist_place (b : Fin 16) (i j : Fin 128) (c : Fin 3) (k : Fin 128) :
    Read.idx_main_v13 (Read.idx_main_v15 (ix5 b i j c k)) = ix4 b i j c :=
  funext fun a => Fin.ext (by match a with | ⟨0, _⟩ => rfl | ⟨1, _⟩ => rfl | ⟨2, _⟩ => rfl | ⟨3, _⟩ => rfl)

/-- The features' side of the row product at contraction step `f`. -/
private theorem row_lhs (b : Fin 16) (a k : Fin 128) (f : Fin 64) : Read.lidx_main_v1 (ix3 b a k) f = ix3 b a f :=
  funext fun d => Fin.ext (by match d with | ⟨0, _⟩ => rfl | ⟨1, _⟩ => rfl | ⟨2, _⟩ => rfl)

/-- The features' side of the column product at contraction step `f`. -/
private theorem col_lhs (b : Fin 16) (a k : Fin 128) (f : Fin 64) : Read.lidx_main_v3 (ix3 b a k) f = ix3 b a f :=
  funext fun d => Fin.ext (by match d with | ⟨0, _⟩ => rfl | ⟨1, _⟩ => rfl | ⟨2, _⟩ => rfl)

/-- The weights' side of the row product: row `f` of the upper half is row `0 + f` of the whole matrix. -/
private theorem row_rhs (b : Fin 16) (a k : Fin 128) (f : Fin 64) :
    Read.idx_main_v0 (Read.ridx_main_v1 (ix3 b a k) f) = ix2 (PairSpec.wrow 0 (by omega) f) k :=
  funext fun d => Fin.ext (by
    match d with
    | ⟨0, _⟩ => show f.val = 0 + f.val; omega
    | ⟨1, _⟩ => rfl)

/-- The weights' side of the column product: row `f` of the lower half is row `64 + f` of the whole matrix. -/
private theorem col_rhs (b : Fin 16) (a k : Fin 128) (f : Fin 64) :
    Read.idx_main_v2 (Read.ridx_main_v3 (ix3 b a k) f) = ix2 (PairSpec.wrow 64 (by omega) f) k :=
  funext fun d => Fin.ext (by match d with | ⟨0, _⟩ => rfl | ⟨1, _⟩ => rfl)

/-- The reference's last stage at `Ideal`, as a function of the four argument arrays, is `PairSpec.G`. -/
theorem ref_is_pair (x0 : FVec Ideal S16x128x64 .f32) (x1 : FVec Ideal S16x128x128x3 .f32)
    (x2 : FVec Ideal S128x128 .f32) (x3 : FVec Ideal S128 .f32) :
    Cert.ReferenceIdeal.Read.val_main_v17 (F := Ideal) x0 x1 x2 x3 = Cert.PairSpec.G x0 x1 x2 x3 := by
  funext o
  obtain ⟨b, i, j, c, k, rfl⟩ : ∃ (b : Fin 16) (i : Fin 128) (j : Fin 128) (c : Fin 3) (k : Fin 128),
      o = ix5 b i j c k := ⟨o 0, o 1, o 2, o 3, o 4, eq_ix5 o⟩
  rw [Cert.PairSpec.G_apply]
  unfold Cert.PairSpec.outAt Cert.PairSpec.pair Cert.PairSpec.proj
  -- the stages, outermost first: the maximum with zero, the product with the distances, the two sums, the two products
  rw [Read.val_main_v17_apply, Read.val_main_v16_apply, Read.val_main_v14_apply, Read.val_main_v12_apply,
    Read.val_main_v11_apply, Read.val_main_v8_apply, Read.val_main_v6_apply, Read.val_main_v4_apply,
    Read.val_main_v1_apply, Read.val_main_v7_apply, Read.val_main_v5_apply, Read.val_main_v3_apply,
    Read.val_main_v10_apply, Read.val_main_v9_apply, Read.val_main_v15_apply, Read.val_main_v13_apply,
    Read.val_main_call0_v0_apply, Read.val_main_call0_cst_apply,
    row_place, col_place, bias_place, dist_place]
  simp only [Read.val_main_v0_apply, Read.val_main_v2_apply, row_lhs, col_lhs, row_rhs, col_rhs,
    Ideal.maximumf_def, Ideal.mulf_def, Ideal.addf_def, Ideal.ofBits_def, Ideal.ofBits_zero_f32]

end Cert.ReferenceIdeal.RefValue

end
-- ==== Proof.lean ====
/-
  The certificate: the pair kernel against its jnp reference, over the extended reals.

  Both programs compute, for a batch `b`, atoms `i`, `j`, a coordinate `c` and a filter `k`,

      out[b, i, j, c, k] = max ( (x[b,i,:] · w[:64, k] + x[b,j,:] · w[64:, k] + bias[k]) * dist[b, i, j, c] , 0 )

  (`Proof/PairSpec.lean`).  The kernel tiles the column atoms by 32 and reads the features array through two windows;
  the reference broadcasts the two projections and the distances to the full five-axis shape.  At the ideal
  instance a change of float format is the identity and a matrix product is a plain sum of products, so the two
  sides are the same expression, the same additions in the same order: no law of the extended reals beyond
  reading each operation at an index is used, and the finiteness of the inputs is never opened.

  * the three frames: the kernel's (at the word level and idealized) from the launch theorem for input windows that
    share an array (`Proof/LibSharedFrame.lean`, `Proof/SvFrameK.lean`, `Proof/SvFrameI.lean`); the reference's is
    its run with the result dropped;
  * `preserves`: the ideal pass rewrote nothing;
  * `algebraic`: the kernel's result array is `PairSpec.G` of the arguments (`Proof/SvValue.lean`, over
    `Proof/PayAt.lean`: the body's stored value at an index), and so is the reference's last stage
    (`Proof/RefIsPair.lean`).
-/
import proofs.«167638_j9388798509584_1_alg».proof.Defs
import proofs.«167638_j9388798509584_1_alg».proof.Proof.Gen.Kernel
import proofs.«167638_j9388798509584_1_alg».proof.Proof.Gen.KernelIdeal
import proofs.«167638_j9388798509584_1_alg».proof.Proof.Gen.ReferenceIdeal
import proofs.«167638_j9388798509584_1_alg».proof.Proof.Gen.Pre_finite_inputs
import proofs.«167638_j9388798509584_1_alg».proof.Proof.Gen.ReferenceIdeal.Run
import proofs.«167638_j9388798509584_1_alg».proof.Proof.Gen.ReferenceIdeal.Read
import proofs.«167638_j9388798509584_1_alg».proof.Proof.SvFrameK
import proofs.«167638_j9388798509584_1_alg».proof.Proof.SvFrameI
import proofs.«167638_j9388798509584_1_alg».proof.Proof.SvValue
import proofs.«167638_j9388798509584_1_alg».proof.Proof.RefIsPair

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.SvFrame.frame m ρ

theorem frame_ki : Cert.frame_KernelIdeal (hKernelIdeal := Cert.KernelIdeal.Gen.facts) (hPre_finite_inputs := Cert.Pre_finite_inputs.Gen.facts) :=
  fun m ρ _ => Cert.KernelIdeal.SvFrame.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the four arguments both programs end with the pair function of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.SvValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_is_pair,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
